-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S16x16 : Shape := ⟨2, ![16, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S16x32 .f32) (main_v33 : IVec S_ 1) : IVec S_ 1 :=
  let main_v34 : FVec F S16x32 .f32 := Host.absf main_arg8
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  main_v38

def fn_part1 {F : FTy → Type} [FloatOps F] (main_arg5 : FVec F S16 .f32) (main_arg6 : FVec F S16x32 .f32) (main_arg7 : FVec F S32 .f32) (main_arg8 : FVec F S16x32 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x32 .f32 := Host.absf main_arg6
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_v33

def fn {F : FTy → Type} [FloatOps F] (main_arg0 : FVec F S100000x16 .f32) (main_arg1 : IVec S2x3200000 32) (main_arg2 : FVec F S16x16 .f32) (main_arg3 : FVec F S16 .f32) (main_arg4 : FVec F S16x16 .f32) (main_arg5 : FVec F S16 .f32) (main_arg6 : FVec F S16x32 .f32) (main_arg7 : FVec F S32 .f32) (main_arg8 : FVec F S16x32 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x16 .f32 := Host.absf main_arg2
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_v13 main_v16
-- ==== Kernel.lean ====
abbrev S100000x16 : Shape := ⟨2, ![100000, 16]⟩
abbrev S2x3200000 : Shape := ⟨2, ![2, 3200000]⟩
abbrev S16x16 : Shape := ⟨2, ![16, 16]⟩
abbrev S16 : Shape := ⟨1, ![16]⟩
abbrev S16x32 : Shape := ⟨2, ![16, 32]⟩
abbrev S32 : Shape := ⟨1, ![32]⟩
abbrev S5000x16 : Shape := ⟨2, ![5000, 16]⟩
abbrev S1x16 : Shape := ⟨2, ![1, 16]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩
abbrev S100000x32 : Shape := ⟨2, ![100000, 32]⟩
abbrev S5000x32 : Shape := ⟨2, ![5000, 32]⟩
abbrev S1x32 : Shape := ⟨2, ![1, 32]⟩

abbrev nBuf : Space → Nat
  | .hbm => 40
  | .vmem => 17
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x32, .f32⟩
  | .hbm, ⟨7, _⟩ => ⟨S32, .f32⟩
  | .hbm, ⟨8, _⟩ => ⟨S16x32, .f32⟩
  | .hbm, ⟨9, _⟩ => ⟨S100000x16, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x16, .f32⟩
  | .hbm, ⟨23, _⟩ => ⟨S_, .f32⟩
  | .hbm, ⟨24, _⟩ => ⟨S100000x16, .f32⟩
  | .hbm, ⟨25, _⟩ => ⟨S3200000x1, .i32⟩
  | .hbm, ⟨26, _⟩ => ⟨S100000x16, .f32⟩
  | .hbm, ⟨27, _⟩ => ⟨S_, .f32⟩
  | .hbm, ⟨28, _⟩ => ⟨S3200000, .f32⟩
  | .hbm, ⟨29, _⟩ => ⟨S_, .f32⟩
  | .hbm, ⟨30, _⟩ => ⟨S100000, .f32⟩
  | .hbm, ⟨31, _⟩ => ⟨S3200000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x16, .f32⟩
  | .hbm, ⟨38, _⟩ => ⟨S100000x16, .f32⟩
  | .hbm, ⟨39, _⟩ => ⟨S100000x32, .f32⟩
  | .local _ .vmem, ⟨0, _⟩ => ⟨S5000x16, .f32⟩
  | .local _ .vmem, ⟨1, _⟩ => ⟨S5000x16, .f32⟩
  | .local _ .vmem, ⟨2, _⟩ => ⟨S16x16, .f32⟩
  | .local _ .vmem, ⟨3, _⟩ => ⟨S16, .f32⟩
  | .local _ .vmem, ⟨4, _⟩ => ⟨S16x16, .f32⟩
  | .local _ .vmem, ⟨5, _⟩ => ⟨S16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x32, .f32⟩
  | .local _ .vmem, ⟨13, _⟩ => ⟨S32, .f32⟩
  | .local _ .vmem, ⟨14, _⟩ => ⟨S16x32, .f32⟩
  | .local _ .vmem, ⟨15, _⟩ => ⟨S5000x32, .f32⟩
  | .local _ .vmem, ⟨16, _⟩ => ⟨S5000x32, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  shapeCasts_S5000x16_S5000x16 : S5000x16.ShapeCasts S5000x16
  inb_S16x32_S16x32_0_0 : ∀ a, (![0, 0] : Fin 2 → Nat) a + S16x32.size a ≤ S16x32.size a
  h_S16x32 : 0 < S16x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  dot_S5000x16_S16x16_S5000x16_1_0_0_1_n_n_wf : DotDims.WF S5000x16 S16x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S5000x16_S16x32_S5000x32_1_0_0_1_n_n_wf : DotDims.WF S5000x16 S16x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x32.size a ≤ S16x32.size a
  hwx1_4 : ∀ i : grid1.Coords, EltTy.bits .f32 = 32 ∨ (Rect.block (s := S16x32) S16x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)

variable [Facts₀]

def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S16x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S16x16 : Shape := ⟨2, ![16, 16]⟩
abbrev S16 : Shape := ⟨1, ![16]⟩
abbrev S16x32 : Shape := ⟨2, ![16, 32]⟩
abbrev S32 : Shape := ⟨1, ![32]⟩
abbrev S1x16 : Shape := ⟨2, ![1, 16]⟩
abbrev S_ : Shape := ⟨0, ![]⟩
abbrev S1x3200000 : Shape := ⟨2, ![1, 3200000]⟩
abbrev S3200000 : Shape := ⟨1, ![3200000]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩

abbrev nBuf : Space → Nat
  | .hbm => 55
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x32, .f32⟩
  | .hbm, ⟨7, _⟩ => ⟨S32, .f32⟩
  | .hbm, ⟨8, _⟩ => ⟨S16x32, .f32⟩
  | .hbm, ⟨9, _⟩ => ⟨S100000x16, .f32⟩
  | .hbm, ⟨10, _⟩ => ⟨S1x16, .f32⟩
  | .hbm, ⟨11, _⟩ => ⟨S100000x16, .f32⟩
  | .hbm, ⟨12, _⟩ => ⟨S100000x16, .f32⟩
  | .hbm, ⟨13, _⟩ => ⟨S_, .f32⟩
  | .hbm, ⟨14, _⟩ => ⟨S100000x16, .f32⟩
  | .hbm, ⟨15, _⟩ => ⟨S100000x16, .f32⟩
  | .hbm, ⟨16, _⟩ => ⟨S100000x16, .f32⟩
  | .hbm, ⟨17, _⟩ => ⟨S1x16, .f32⟩
  | .hbm, ⟨18, _⟩ => ⟨S100000x16, .f32⟩
  | .hbm, ⟨19, _⟩ => ⟨S100000x16, .f32⟩
  | .hbm, ⟨20, _⟩ => ⟨S1x3200000, .i32⟩
  | .hbm, ⟨21, _⟩ => ⟨S3200000, .i32⟩
  | .hbm, ⟨22, _⟩ => ⟨S1x3200000, .i32⟩
  | .hbm, ⟨23, _⟩ => ⟨S3200000, .i32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x16, .f32⟩
  | .hbm, ⟨33, _⟩ => ⟨S_, .f32⟩
  | .hbm, ⟨34, _⟩ => ⟨S100000x16, .f32⟩
  | .hbm, ⟨35, _⟩ => ⟨S3200000x1, .i32⟩
  | .hbm, ⟨36, _⟩ => ⟨S100000x16, .f32⟩
  | .hbm, ⟨37, _⟩ => ⟨S_, .f32⟩
  | .hbm, ⟨38, _⟩ => ⟨S3200000, .f32⟩
  | .hbm, ⟨39, _⟩ => ⟨S_, .f32⟩
  | .hbm, ⟨40, _⟩ => ⟨S100000, .f32⟩
  | .hbm, ⟨41, _⟩ => ⟨S3200000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x16, .f32⟩
  | .hbm, ⟨48, _⟩ => ⟨S100000x16, .f32⟩
  | .hbm, ⟨49, _⟩ => ⟨S100000x32, .f32⟩
  | .hbm, ⟨50, _⟩ => ⟨S1x32, .f32⟩
  | .hbm, ⟨51, _⟩ => ⟨S100000x32, .f32⟩
  | .hbm, ⟨52, _⟩ => ⟨S100000x32, .f32⟩
  | .hbm, ⟨53, _⟩ => ⟨S100000x32, .f32⟩
  | .hbm, ⟨54, _⟩ => ⟨S100000x32, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x16_S16x16_S100000x16_1_0_0_1_n_n_wf : DotDims.WF S100000x16 S16x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S100000x16_S16x32_S100000x32_1_0_0_1_n_n_wf : DotDims.WF S100000x16 S16x32 S100000x32 [1] [0] [0] [1] [] []

variable [Facts₀]

def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf

class Facts : Prop extends Facts₀ where

variable [Facts]
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.RowSpec.lean ====
/-
  The network on one node, and on every node. A node's hidden features are a two-layer perceptron of its input row:
  h = max(x·W₁ + b₁, 0)·W₂ + b₂. A node's output combines the mean a of its in-neighbours' hidden features with its own:
  out = (a·W_l + b_l) + h·W_r. Both are functions of single rows, so they are stated once on a row (sums over the
  contracted coordinate, on the extended reals) and then lifted to an array of any number R of rows, row r of the
  result being the row function of row r of the operands. The same lift serves a block of a few thousand rows and
  the whole node table: a block of the whole-array result is the block result of the operand blocks.
-/
import proofs.«103215_j29755533427165_1_alg».proof.Proof.LibDenseRows

noncomputable section

namespace Cert.NodeRows

open Idealize.ShloMosaic Idealize.ShloMosaic.ValueIdx Cert.LibDenseRows

/-- The perceptron on one input row: a dense layer, the rectifier, a second dense layer. -/
def mlpRow (x : Fin 16 → EReal) (W₁ : Fin 16 → Fin 16 → EReal) (b₁ : Fin 16 → EReal)
    (W₂ : Fin 16 → Fin 16 → EReal) (b₂ : Fin 16 → EReal) : Fin 16 → EReal :=
  dense (relu (dense x W₁ b₁)) W₂ b₂

/-- The combine on one node: the neighbour mean through its biased layer, plus the node's own features through the
    unbiased one; the grouping is (a·W_l + b_l) + h·W_r. -/
def combineRow (a h : Fin 16 → EReal) (Wl : Fin 16 → Fin 32 → EReal) (bl : Fin 32 → EReal)
    (Wr : Fin 16 → Fin 32 → EReal) : Fin 32 → EReal :=
  fun n => dense a Wl bl n + ∑ k : Fin 16, h k * Wr k n

variable {R : ℕ}

/-- Hidden features of R nodes: row r is the perceptron of row r of the inputs. -/
def hidden (x : FVec Ideal (Sh2 R 16) .f32) (w1 : FVec Ideal (Sh2 16 16) .f32) (b1 : FVec Ideal (Sh1 16) .f32)
    (w2 : FVec Ideal (Sh2 16 16) .f32) (b2 : FVec Ideal (Sh1 16) .f32) : FVec Ideal (Sh2 R 16) .f32 :=
  fun i => mlpRow (fun k => x (ix2 (n0 := R) (i 0) k)) (fun k n => w1 (ix2 k n)) (fun n => b1 (ix1 n))
    (fun k n => w2 (ix2 k n)) (fun n => b2 (ix1 n)) (i 1)

theorem hidden_apply (x : FVec Ideal (Sh2 R 16) .f32) (w1 : FVec Ideal (Sh2 16 16) .f32) (b1 : FVec Ideal (Sh1 16) .f32)
    (w2 : FVec Ideal (Sh2 16 16) .f32) (b2 : FVec Ideal (Sh1 16) .f32) (r : Fin R) (n : Fin 16) :
    hidden x w1 b1 w2 b2 (ix2 r n)
      = mlpRow (fun k => x (ix2 r k)) (fun k n => w1 (ix2 k n)) (fun n => b1 (ix1 n))
          (fun k n => w2 (ix2 k n)) (fun n => b2 (ix1 n)) n := rfl

/-- Outputs of R nodes: row r is the combine of row r of the neighbour means and row r of the hidden features. -/
def combine (a h : FVec Ideal (Sh2 R 16) .f32) (wl : FVec Ideal (Sh2 16 32) .f32) (bl : FVec Ideal (Sh1 32) .f32)
    (wr : FVec Ideal (Sh2 16 32) .f32) : FVec Ideal (Sh2 R 32) .f32 :=
  fun i => combineRow (fun k => a (ix2 (n0 := R) (i 0) k)) (fun k => h (ix2 (n0 := R) (i 0) k))
    (fun k n => wl (ix2 k n)) (fun n => bl (ix1 n)) (fun k n => wr (ix2 k n)) (i 1)

theorem combine_apply (a h : FVec Ideal (Sh2 R 16) .f32) (wl : FVec Ideal (Sh2 16 32) .f32) (bl : FVec Ideal (Sh1 32) .f32)
    (wr : FVec Ideal (Sh2 16 32) .f32) (r : Fin R) (n : Fin 32) :
    combine a h wl bl wr (ix2 r n)
      = combineRow (fun k => a (ix2 r k)) (fun k => h (ix2 r k)) (fun k n => wl (ix2 k n)) (fun n => bl (ix1 n))
          (fun k n => wr (ix2 k n)) n := rfl

/-- Two node tables of different heights give the same hidden features at two indices whenever the input rows at
    those indices agree entry by entry and the two indices name the same column. -/
theorem hidden_congr_row {R' : ℕ} (x : FVec Ideal (Sh2 R 16) .f32) (x' : FVec Ideal (Sh2 R' 16) .f32)
    (w1 : FVec Ideal (Sh2 16 16) .f32) (b1 : FVec Ideal (Sh1 16) .f32) (w2 : FVec Ideal (Sh2 16 16) .f32) (b2 : FVec Ideal (Sh1 16) .f32)
    (i : (Sh2 R 16).Idx) (i' : (Sh2 R' 16).Idx)
    (hrow : ∀ k : Fin 16, x (ix2 (n0 := R) (i 0) k) = x' (ix2 (n0 := R') (i' 0) k)) (hcol : (i 1).val = (i' 1).val) :
    hidden x w1 b1 w2 b2 i = hidden x' w1 b1 w2 b2 i' := by
  have hc : (i 1 : Fin 16) = (i' 1 : Fin 16) := Fin.ext hcol
  unfold hidden
  rw [funext hrow, hc]

/-- The same for the combine: the rows of the neighbour means agree, the rows of the hidden features agree, and the
    indices name the same column. -/
theorem combine_congr_row {R' : ℕ} (a h : FVec Ideal (Sh2 R 16) .f32) (a' h' : FVec Ideal (Sh2 R' 16) .f32)
    (wl : FVec Ideal (Sh2 16 32) .f32) (bl : FVec Ideal (Sh1 32) .f32) (wr : FVec Ideal (Sh2 16 32) .f32)
    (i : (Sh2 R 32).Idx) (i' : (Sh2 R' 32).Idx)
    (harow : ∀ k : Fin 16, a (ix2 (n0 := R) (i 0) k) = a' (ix2 (n0 := R') (i' 0) k))
    (hhrow : ∀ k : Fin 16, h (ix2 (n0 := R) (i 0) k) = h' (ix2 (n0 := R') (i' 0) k)) (hcol : (i 1).val = (i' 1).val) :
    combine a h wl bl wr i = combine a' h' wl bl wr i' := by
  have hc : (i 1 : Fin 32) = (i' 1 : Fin 32) := Fin.ext hcol
  unfold combine
  rw [funext harow, funext hhrow, hc]

end Cert.NodeRows
-- ==== Proof.BlockBodies.lean ====
/-
  What the two kernel bodies compute on a block of 5000 node rows. The first body's stored value is the perceptron
  of its input block row by row: two block products into zero accumulators, each followed by its bias row broadcast
  down the block, the rectifier between them, and changes of float format that change no entry. The second body's
  stored value is the combine of its two input blocks row by row: the two block products (each operand first passed through a cast to its own shape, which moves no entry), the bias
  row added to the first, then the second product added. Both are therefore the row lifts of the specification at R = 5000.
-/
import proofs.«103215_j29755533427165_1_alg».proof.Proof.Gen.KernelIdeal.Skeleton
import proofs.«103215_j29755533427165_1_alg».proof.Proof.RowSpec

noncomputable section

namespace Cert.NodeRows

open Idealize.ShloMosaic Idealize.ShloMosaic.ValueIdx Cert.LibDenseRows Cert.KernelIdeal Cert.KernelIdeal.Gen

/-- The first body's stored value is the hidden features of its block of rows. -/
theorem mlpBody_eq (x0 : Vec Ideal S5000x16 .f32) (x1 : Vec Ideal S16x16 .f32) (x2 : Vec Ideal S16 .f32)
    (x3 : Vec Ideal S16x16 .f32) (x4 : Vec Ideal S16 .f32) :
    k0_pay1 (F := Ideal) x0 x1 x2 x3 x4 = hidden (R := 5000) x0 x1 x2 x3 x4 := by
  funext i
  obtain ⟨r, n, rfl⟩ : ∃ (r : Fin 5000) (n : Fin 16), i = ix2 r n := ⟨i 0, i 1, eq_ix2 i⟩
  rw [hidden_apply]
  show kDense (R := 5000) (K := 16) (N := 16)
      (truncf .bf16 (kRelu (kDense (R := 5000) (K := 16) (N := 16) (truncf .bf16 x0 bitsLt_bf16_f32) (truncf .bf16 x1 bitsLt_bf16_f32) x2
        shapeCasts_S16_S1x16 broadcasts_S1x16_S5000x16)) bitsLt_bf16_f32)
      (truncf .bf16 x3 bitsLt_bf16_f32) x4 shapeCasts_S16_S1x16 broadcasts_S1x16_S5000x16 (ix2 r n) = _
  refine (congrFun (kDense_row _ _ x4 _ _ r) n).trans ?_
  show dense (fun k => kRelu (kDense (R := 5000) (K := 16) (N := 16) (truncf .bf16 x0 bitsLt_bf16_f32) (truncf .bf16 x1 bitsLt_bf16_f32) x2
      shapeCasts_S16_S1x16 broadcasts_S1x16_S5000x16) (ix2 r k)) (fun k n => x3 (ix2 k n)) (fun n => x4 (ix1 n)) n = _
  rw [kRelu_row, kDense_row]
  rfl

/-- The second body's stored value is the combine of its two blocks of rows. -/
theorem combineBody_eq (x0 x1 : Vec Ideal S5000x16 .f32) (x2 : Vec Ideal S16x32 .f32) (x3 : Vec Ideal S32 .f32)
    (x4 : Vec Ideal S16x32 .f32) :
    k1_pay1 (F := Ideal) x0 x1 x2 x4 x3 = combine (R := 5000) x0 x1 x2 x3 x4 := by
  funext i
  obtain ⟨r, n, rfl⟩ : ∃ (r : Fin 5000) (n : Fin 32), i = ix2 r n := ⟨i 0, i 1, eq_ix2 i⟩
  rw [combine_apply]
  show kDense (R := 5000) (K := 16) (N := 32)
        (truncf .bf16 (shapeCast S5000x16 x0 shapeCasts_S5000x16_S5000x16) bitsLt_bf16_f32) (truncf .bf16 x2 bitsLt_bf16_f32) x3
        shapeCasts_S32_S1x32 broadcasts_S1x32_S5000x32 (ix2 r n)
      + matmul (DotDims.plain 5000 16 32) none
          (truncf .bf16 (shapeCast S5000x16 x1 shapeCasts_S5000x16_S5000x16) bitsLt_bf16_f32) (truncf .bf16 x4 bitsLt_bf16_f32)
          (constant (Sh2 5000 32) .f32 0x00000000#32) (ix2 r n) = _
  rw [shapeCast_self x0, shapeCast_self x1, congrFun (kDense_row _ _ x3 _ _ r) n, matmul_plain_zero_apply]
  rfl

end Cert.NodeRows
-- ==== Proof.HiddenArray.lean ====
/-
  The first region leaves the hidden features of every node. Its grid has twenty points; point t stages rows
  5000·t … 5000·t + 4999 of the input table and the four parameter arrays whole, and writes the same rows of the
  result back. The body's block is the perceptron of the staged rows, so what point t writes back is rows
  5000·t … of the perceptron of the whole input table (a row of the result depends on that row of the input only);
  the twenty row blocks cover the 100000 rows, so the result array is the perceptron of the input table, stated from
  whatever contents the region finds in its arrays.
-/
import proofs.«103215_j29755533427165_1_alg».proof.Proof.Gen.KernelIdeal.Frame
import proofs.«103215_j29755533427165_1_alg».proof.Proof.BlockBodies
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.NodeRows

open Idealize.ShloMosaic.ValueIdx Cert.LibDenseRows Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- Where the first region's windows sit at grid point t: the two row windows at block t of the rows, every
    parameter window at its only block. -/
theorem place0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The staged input rows at point t are rows 5000·t … of the input table. -/
theorem inRows0 (c : Dev nD) (t : Fin cfg0.N) (y : S5000x16.Idx) (k : S100000x16.Idx)
    (h0 : (k 0).val = t.val * 5000 + (y 0).val) (h1 : (k 1).val = (y 1).val) :
    (iblk0 V c 0 t : Vec Ideal S5000x16 .f32) y = (V c main_arg0 : S100000x16.Idx → Elt Ideal .f32) k := by
  obtain ⟨e0, e1, -⟩ := place0 t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; rw [e0, h0]; omega
  | ⟨1, _⟩ => show win0_0.index t (1 : Fin 2) * 16 + 1 * (y 1).val = (k 1).val; rw [e1, h1]; omega

/-- Each parameter window stages its whole array at every point. -/
theorem w1Whole0 (c : Dev nD) (t : Fin cfg0.N) : (iblk0 V c 1 t : Vec Ideal S16x16 .f32) = V c main_arg2 := by
  obtain ⟨-, -, e0, e1, -⟩ := place0 t
  funext y
  unfold iblk0
  rw [View.read_apply]
  show V c main_arg2 _ = V c main_arg2 _
  congr 1
  funext a
  apply Fin.ext
  match a with
  | ⟨0, _⟩ => show win0_1.index t (0 : Fin 2) * 16 + 1 * (y 0).val = (y 0).val; rw [e0]; omega
  | ⟨1, _⟩ => show win0_1.index t (1 : Fin 2) * 16 + 1 * (y 1).val = (y 1).val; rw [e1]; omega

theorem b1Whole0 (c : Dev nD) (t : Fin cfg0.N) : (iblk0 V c 2 t : Vec Ideal S16 .f32) = V c main_arg3 := by
  obtain ⟨-, -, -, -, e0, -⟩ := place0 t
  funext y
  unfold iblk0
  rw [View.read_apply]
  show V c main_arg3 _ = V c main_arg3 _
  congr 1
  funext a
  apply Fin.ext
  match a with
  | ⟨0, _⟩ => show win0_2.index t (0 : Fin 1) * 16 + 1 * (y 0).val = (y 0).val; rw [e0]; omega

theorem w2Whole0 (c : Dev nD) (t : Fin cfg0.N) : (iblk0 V c 3 t : Vec Ideal S16x16 .f32) = V c main_arg4 := by
  obtain ⟨-, -, -, -, -, e0, e1, -⟩ := place0 t
  funext y
  unfold iblk0
  rw [View.read_apply]
  show V c main_arg4 _ = V c main_arg4 _
  congr 1
  funext a
  apply Fin.ext
  match a with
  | ⟨0, _⟩ => show win0_3.index t (0 : Fin 2) * 16 + 1 * (y 0).val = (y 0).val; rw [e0]; omega
  | ⟨1, _⟩ => show win0_3.index t (1 : Fin 2) * 16 + 1 * (y 1).val = (y 1).val; rw [e1]; omega

theorem b2Whole0 (c : Dev nD) (t : Fin cfg0.N) : (iblk0 V c 4 t : Vec Ideal S16 .f32) = V c main_arg5 := by
  obtain ⟨-, -, -, -, -, -, -, e0, -⟩ := place0 t
  funext y
  unfold iblk0
  rw [View.read_apply]
  show V c main_arg5 _ = V c main_arg5 _
  congr 1
  funext a
  apply Fin.ext
  match a with
  | ⟨0, _⟩ => show win0_4.index t (0 : Fin 1) * 16 + 1 * (y 0).val = (y 0).val; rw [e0]; omega

/-- The hidden features of all nodes, from the arrays the region finds. -/
abbrev hiddenOf (c : Dev nD) : FVec Ideal (Sh2 100000 16) .f32 :=
  hidden (R := 100000) (V c main_arg0) (V c main_arg2) (V c main_arg3) (V c main_arg4) (V c main_arg5)

/-- What point t writes back is rows 5000·t … of the hidden features of all nodes. -/
theorem hidden_flushed (c : Dev nD) (t : Fin cfg0.N) :
    (dat0 V c).flushed 5 t = ((cfg0.win 5).blk t).view.read (Elt Ideal) (hiddenOf V c) := by
  show (cfg0.win 5).cut (grid0.coords t) ((dat0 V c).after 5 t) = _
  rw [after0_5]
  unfold out0_5
  rw [View.canon_unit_zero origin2]
  simp only [View.ld_unit_zero (S := S5000x16) origin2, View.ld_unit_zero (S := S16x16) origin2, View.ld_unit_zero (S := S16) origin1]
  rw [mlpBody_eq, w1Whole0, b1Whole0, w2Whole0, b2Whole0]
  obtain ⟨-, -, -, -, -, -, -, -, e0, e1⟩ := place0 t
  funext j
  rw [View.read_apply]
  refine hidden_congr_row (R := 5000) (R' := 100000) _ _ _ _ _ _ j (((cfg0.win 5).blk t).view.emb j) (fun k => ?_) ?_
  · refine inRows0 V c t _ _ ?_ rfl
    show win0_5.index t (0 : Fin 2) * 5000 + 1 * (j 0).val = t.val * 5000 + (j 0).val
    rw [e0]; omega
  · show (j 1).val = win0_5.index t (1 : Fin 2) * 16 + 1 * (j 1).val
    rw [e1]; omega

/-- An index of the result array is in point t's block iff each coordinate is in the block's range on its axis. -/
theorem mem_rows0 (t : Fin cfg0.N) (i : S100000x16.Idx) :
    i ∈ ((cfg0.win 5).blk t).view.set ↔ ∀ a : Fin 2, win0_5.index t a * S5000x16.size a ≤ (i a).val ∧ (i a).val < win0_5.index t a * S5000x16.size a + S5000x16.size a := by
  show i ∈ ((View.whole main_v0).slice (win0_5.rect t)).set ↔ _
  rw [View.set_slice_whole, Rect.mem_set_unit]
  exact Iff.rfl

/-- Every index of the result array lies in the block of the point its row falls to: point ⌊row / 5000⌋. -/
theorem hidden_cover (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  have hN : cfg0.N = 20 := N_0
  let t : Fin cfg0.N := ⟨(i 0).val / 5000, by rw [hN]; omega⟩
  obtain ⟨-, -, -, -, -, -, -, -, e0, e1⟩ := place0 t
  have e0' : win0_5.index t (0 : Fin 2) = (i 0).val / 5000 := e0
  refine ⟨t, flush0_5 t, ?_⟩
  rw [mem_rows0]
  intro a
  match a with
  | ⟨0, _⟩ => show win0_5.index t (0 : Fin 2) * 5000 ≤ (i 0).val ∧ (i 0).val < win0_5.index t (0 : Fin 2) * 5000 + 5000; rw [e0']; omega
  | ⟨1, _⟩ => show win0_5.index t (1 : Fin 2) * 16 ≤ (i 1).val ∧ (i 1).val < win0_5.index t (1 : Fin 2) * 16 + 16; rw [e1]; omega

/-- The result array after the region: the hidden features of all nodes. -/
theorem hidden_array (c : Dev nD) : (dat0 V c).arrAt 5 cfg0.N = hiddenOf V c :=
  (dat0 V c).arrAt_eq_of_cover 5 (hiddenOf V c) (fun t _ => hidden_flushed V c t) hidden_cover

end Cert.NodeRows
-- ==== Proof.OutputArray.lean ====
/-
  The second region leaves the output of every node. Its grid has twenty points; point t stages rows 5000·t … of the
  neighbour-mean table and of the hidden-feature table, and the three parameter arrays whole, and writes the same rows
  of the 32-wide result back. The body's block is the combine of the two staged row blocks, a row of the result
  depending on that row of each table only, so what point t writes back is rows 5000·t … of the combine of the whole
  tables; the twenty row blocks cover the 100000 rows. Stated from whatever contents the region finds in its arrays.
-/
import proofs.«103215_j29755533427165_1_alg».proof.Proof.Gen.KernelIdeal.Frame
import proofs.«103215_j29755533427165_1_alg».proof.Proof.BlockBodies
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.NodeRows.Out

open Idealize.ShloMosaic.ValueIdx Cert.LibDenseRows Cert.NodeRows Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- Where the second region's windows sit at grid point t: the three row windows at block t of the rows, every
    parameter window at its only block. -/
theorem place1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The staged rows of the neighbour means at point t are rows 5000·t … of their table. -/
theorem meanRows1 (c : Dev nD) (t : Fin cfg1.N) (y : S5000x16.Idx) (k : S100000x16.Idx)
    (h0 : (k 0).val = t.val * 5000 + (y 0).val) (h1 : (k 1).val = (y 1).val) :
    (iblk1 V c 0 t : Vec Ideal S5000x16 .f32) y = (V c main_v23 : S100000x16.Idx → Elt Ideal .f32) k := by
  obtain ⟨e0, e1, -⟩ := place1 t
  unfold iblk1
  rw [View.read_apply]
  show V c main_v23 _ = V c main_v23 _
  congr 1
  funext a
  apply Fin.ext
  match a with
  | ⟨0, _⟩ => show win1_0.index t (0 : Fin 2) * 5000 + 1 * (y 0).val = (k 0).val; rw [e0, h0]; omega
  | ⟨1, _⟩ => show win1_0.index t (1 : Fin 2) * 16 + 1 * (y 1).val = (k 1).val; rw [e1, h1]; omega

/-- The staged rows of the hidden features at point t are rows 5000·t … of their table. -/
theorem hiddenRows1 (c : Dev nD) (t : Fin cfg1.N) (y : S5000x16.Idx) (k : S100000x16.Idx)
    (h0 : (k 0).val = t.val * 5000 + (y 0).val) (h1 : (k 1).val = (y 1).val) :
    (iblk1 V c 1 t : Vec Ideal S5000x16 .f32) y = (V c main_v0 : S100000x16.Idx → Elt Ideal .f32) k := by
  obtain ⟨-, -, e0, e1, -⟩ := place1 t
  unfold iblk1
  rw [View.read_apply]
  show V c main_v0 _ = V c main_v0 _
  congr 1
  funext a
  apply Fin.ext
  match a with
  | ⟨0, _⟩ => show win1_1.index t (0 : Fin 2) * 5000 + 1 * (y 0).val = (k 0).val; rw [e0, h0]; omega
  | ⟨1, _⟩ => show win1_1.index t (1 : Fin 2) * 16 + 1 * (y 1).val = (k 1).val; rw [e1, h1]; omega

/-- Each parameter window stages its whole array at every point. -/
theorem wlWhole1 (c : Dev nD) (t : Fin cfg1.N) : (iblk1 V c 2 t : Vec Ideal S16x32 .f32) = V c main_arg6 := by
  obtain ⟨-, -, -, -, e0, e1, -⟩ := place1 t
  funext y
  unfold iblk1
  rw [View.read_apply]
  show V c main_arg6 _ = V c main_arg6 _
  congr 1
  funext a
  apply Fin.ext
  match a with
  | ⟨0, _⟩ => show win1_2.index t (0 : Fin 2) * 16 + 1 * (y 0).val = (y 0).val; rw [e0]; omega
  | ⟨1, _⟩ => show win1_2.index t (1 : Fin 2) * 32 + 1 * (y 1).val = (y 1).val; rw [e1]; omega

theorem blWhole1 (c : Dev nD) (t : Fin cfg1.N) : (iblk1 V c 3 t : Vec Ideal S32 .f32) = V c main_arg7 := by
  obtain ⟨-, -, -, -, -, -, e0, -⟩ := place1 t
  funext y
  unfold iblk1
  rw [View.read_apply]
  show V c main_arg7 _ = V c main_arg7 _
  congr 1
  funext a
  apply Fin.ext
  match a with
  | ⟨0, _⟩ => show win1_3.index t (0 : Fin 1) * 32 + 1 * (y 0).val = (y 0).val; rw [e0]; omega

theorem wrWhole1 (c : Dev nD) (t : Fin cfg1.N) : (iblk1 V c 4 t : Vec Ideal S16x32 .f32) = V c main_arg8 := by
  obtain ⟨-, -, -, -, -, -, -, e0, e1, -⟩ := place1 t
  funext y
  unfold iblk1
  rw [View.read_apply]
  show V c main_arg8 _ = V c main_arg8 _
  congr 1
  funext a
  apply Fin.ext
  match a with
  | ⟨0, _⟩ => show win1_4.index t (0 : Fin 2) * 16 + 1 * (y 0).val = (y 0).val; rw [e0]; omega
  | ⟨1, _⟩ => show win1_4.index t (1 : Fin 2) * 32 + 1 * (y 1).val = (y 1).val; rw [e1]; omega

/-- The outputs of all nodes, from the arrays the region finds. -/
abbrev outputOf (c : Dev nD) : FVec Ideal (Sh2 100000 32) .f32 :=
  combine (R := 100000) (V c main_v23) (V c main_v0) (V c main_arg6) (V c main_arg7) (V c main_arg8)

/-- What point t writes back is rows 5000·t … of the outputs of all nodes. -/
theorem output_flushed (c : Dev nD) (t : Fin cfg1.N) :
    (dat1 V c).flushed 5 t = ((cfg1.win 5).blk t).view.read (Elt Ideal) (outputOf V c) := by
  show (cfg1.win 5).cut (grid1.coords t) ((dat1 V c).after 5 t) = _
  rw [after1_5]
  unfold out1_5
  rw [View.canon_unit_zero origin2]
  simp only [View.ld_unit_zero (S := S5000x16) origin2, View.ld_unit_zero (S := S16x32) origin2, View.ld_unit_zero (S := S32) origin1]
  rw [combineBody_eq, wlWhole1, blWhole1, wrWhole1]
  obtain ⟨-, -, -, -, -, -, -, -, -, e0, e1⟩ := place1 t
  funext j
  rw [View.read_apply]
  have hrow : (((cfg1.win 5).blk t).view.emb j 0).val = t.val * 5000 + (j 0).val := by
    show win1_5.index t (0 : Fin 2) * 5000 + 1 * (j 0).val = t.val * 5000 + (j 0).val
    rw [e0]; omega
  refine combine_congr_row (R := 5000) (R' := 100000) _ _ _ _ _ _ _ j (((cfg1.win 5).blk t).view.emb j) (fun k => ?_) (fun k => ?_) ?_
  · exact meanRows1 V c t _ _ hrow rfl
  · exact hiddenRows1 V c t _ _ hrow rfl
  · show (j 1).val = win1_5.index t (1 : Fin 2) * 32 + 1 * (j 1).val
    rw [e1]; omega

/-- An index of the result array is in point t's block iff each coordinate is in the block's range on its axis. -/
theorem mem_rows1 (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v24).slice (win1_5.rect t)).set ↔ _
  rw [View.set_slice_whole, Rect.mem_set_unit]
  exact Iff.rfl

/-- Every index of the result array lies in the block of the point its row falls to: point ⌊row / 5000⌋. -/
theorem output_cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  have hN : cfg1.N = 20 := N_1
  let t : Fin cfg1.N := ⟨(i 0).val / 5000, by rw [hN]; omega⟩
  obtain ⟨-, -, -, -, -, -, -, -, -, e0, e1⟩ := place1 t
  have e0' : win1_5.index t (0 : Fin 2) = (i 0).val / 5000 := e0
  refine ⟨t, flush1_5 t, ?_⟩
  rw [mem_rows1]
  intro a
  match a with
  | ⟨0, _⟩ => show win1_5.index t (0 : Fin 2) * 5000 ≤ (i 0).val ∧ (i 0).val < win1_5.index t (0 : Fin 2) * 5000 + 5000; rw [e0']; omega
  | ⟨1, _⟩ => show win1_5.index t (1 : Fin 2) * 32 ≤ (i 1).val ∧ (i 1).val < win1_5.index t (1 : Fin 2) * 32 + 32; rw [e1]; omega

/-- The result array after the region: the outputs of all nodes. -/
theorem output_array (c : Dev nD) : (dat1 V c).arrAt 5 cfg1.N = outputOf V c :=
  (dat1 V c).arrAt_eq_of_cover 5 (outputOf V c) (fun t _ => output_flushed V c t) output_cover

end Cert.NodeRows.Out
-- ==== Proof.NeighbourMean.lean ====
/-
  The message-passing step, carried as one function. Between the two dense stages both programs do the same thing
  to the hidden features h and the edge list e = (src; dst): split e into its two rows, wrap negative sources by the
  number of nodes, gather the source rows of h, add them into a zero table at their destinations, count the edges
  arriving at each destination the same way, take the larger of the count and one, and divide. The two programs spell
  this with the same operations in the same order, so the certificate never looks inside: it names the chain once and
  only needs the values going in to agree.
-/
import proofs.«103215_j29755533427165_1_alg».proof.Proof.Gen.KernelIdeal.Launch
import proofs.«103215_j29755533427165_1_alg».proof.Proof.Gen.ReferenceIdeal
import Idealize.ShloMosaic.Lib.StableHlo.Run
import Idealize.ShloMosaic.PureOps.Ideal

noncomputable section

open Idealize.ShloMosaic Idealize.ShloMosaic.TcCoe Idealize.SL.Sem

namespace Cert.NodeRows.Mean

section Kernel
open Cert.KernelIdeal Cert.KernelIdeal.Gen Idealize.ShloMosaic.StableHlo

/-- The mean of the in-neighbours' hidden features, as the kernel's program spells the chain. -/
def neighbourMean (h : FVec Ideal S100000x16 .f32) (e : Vec Ideal S2x3200000 .i32) : FVec Ideal S100000x16 .f32 :=
  Host.divf (Host.scatterAdd scatter_S100000x16_S3200000x1_S3200000x16_1_0_0_1 (broadcastInDim S100000x16 ![] bcast_S_S100000x16 (constant (F := Ideal) S_ .f32 0x00000000#32)) (broadcastInDim S3200000x1 ![0] bcast_S3200000_S3200000x1_0 (shapeCast _ (extractStridedSlice S1x3200000 ![1, 0] e slices_S2x3200000_S1x3200000_1_0) shapeCasts_S1x3200000_S3200000)) (Host.gather gather_S100000x16_S3200000x1_S3200000x16_1_0_n_n_0_1_116 h (broadcastInDim S3200000x1 ![0] bcast_S3200000_S3200000x1_0 (select (cmpi .slt (shapeCast _ (extractStridedSlice S1x3200000 ![0, 0] e slices_S2x3200000_S1x3200000_0_0) shapeCasts_S1x3200000_S3200000) (broadcastInDim S3200000 ![] bcast_S_S3200000 (constantI S_ 32 0#32))) (addi (shapeCast _ (extractStridedSlice S1x3200000 ![0, 0] e slices_S2x3200000_S1x3200000_0_0) shapeCasts_S1x3200000_S3200000) (broadcastInDim S3200000 ![] bcast_S_S3200000 (constantI S_ 32 100000#32))) (shapeCast _ (extractStridedSlice S1x3200000 ![0, 0] e slices_S2x3200000_S1x3200000_0_0) shapeCasts_S1x3200000_S3200000))))) (broadcastInDim S100000x16 ![0, 1] bcast_S100000x1_S100000x16_0_1 (broadcastInDim S100000x1 ![0] bcast_S100000_S100000x1_0 (maximumf (Host.scatterAdd scatter_S100000_S3200000x1_S3200000_n_0_0_1 (broadcastInDim S100000 ![] bcast_S_S100000 (constant (F := Ideal) S_ .f32 0x00000000#32)) (broadcastInDim S3200000x1 ![0] bcast_S3200000_S3200000x1_0 (shapeCast _ (extractStridedSlice S1x3200000 ![1, 0] e slices_S2x3200000_S1x3200000_1_0) shapeCasts_S1x3200000_S3200000)) (broadcastInDim S3200000 ![] bcast_S_S3200000 (constant (F := Ideal) S_ .f32 0x3F800000#32))) (broadcastInDim S100000 ![] bcast_S_S100000 (constant (F := Ideal) S_ .f32 0x3F800000#32)))))

set_option maxRecDepth 8192 in
set_option maxHeartbeats 2000000 in
/-- The host stretch between the regions leaves the neighbour mean of the hidden features and the edge list it finds, -/
theorem after_mean (W : Valuation τ sig (Elt Ideal)) :
    StableHlo.after (hostOps1 (F := Ideal)) W (Proc.devRef .tc main_v23)
      = neighbourMean (W (Proc.devRef .tc main_v0)) (W (Proc.devRef .tc main_arg1)) := by
  after_results_simp <;> rfl

set_option maxRecDepth 8192 in
set_option maxHeartbeats 2000000 in
/-- and leaves the hidden features and the second stage's parameters as it finds them. -/
theorem after_hidden (W : Valuation τ sig (Elt Ideal)) :
    StableHlo.after (hostOps1 (F := Ideal)) W (Proc.devRef .tc main_v0) = W (Proc.devRef .tc main_v0) := by
  after_results_simp <;> rfl
set_option maxRecDepth 8192 in
set_option maxHeartbeats 2000000 in
theorem after_wl (W : Valuation τ sig (Elt Ideal)) :
    StableHlo.after (hostOps1 (F := Ideal)) W (Proc.devRef .tc main_arg6) = W (Proc.devRef .tc main_arg6) := by
  after_results_simp <;> rfl
set_option maxRecDepth 8192 in
set_option maxHeartbeats 2000000 in
theorem after_bl (W : Valuation τ sig (Elt Ideal)) :
    StableHlo.after (hostOps1 (F := Ideal)) W (Proc.devRef .tc main_arg7) = W (Proc.devRef .tc main_arg7) := by
  after_results_simp <;> rfl
set_option maxRecDepth 8192 in
set_option maxHeartbeats 2000000 in
theorem after_wr (W : Valuation τ sig (Elt Ideal)) :
    StableHlo.after (hostOps1 (F := Ideal)) W (Proc.devRef .tc main_arg8) = W (Proc.devRef .tc main_arg8) := by
  after_results_simp <;> rfl

end Kernel

section Reference
open Cert.ReferenceIdeal Cert.ReferenceIdeal.Gen

/-- The same chain as the reference program spells it. -/
def neighbourMeanRef (h : FVec Ideal S100000x16 .f32) (e : Vec Ideal S2x3200000 .i32) : FVec Ideal S100000x16 .f32 :=
  Host.divf (Host.scatterAdd scatter_S100000x16_S3200000x1_S3200000x16_1_0_0_1 (broadcastInDim S100000x16 ![] bcast_S_S100000x16 (constant (F := Ideal) S_ .f32 0x00000000#32)) (broadcastInDim S3200000x1 ![0] bcast_S3200000_S3200000x1_0 (shapeCast _ (extractStridedSlice S1x3200000 ![1, 0] e slices_S2x3200000_S1x3200000_1_0) shapeCasts_S1x3200000_S3200000)) (Host.gather gather_S100000x16_S3200000x1_S3200000x16_1_0_n_n_0_1_116 h (broadcastInDim S3200000x1 ![0] bcast_S3200000_S3200000x1_0 (select (cmpi .slt (shapeCast _ (extractStridedSlice S1x3200000 ![0, 0] e slices_S2x3200000_S1x3200000_0_0) shapeCasts_S1x3200000_S3200000) (broadcastInDim S3200000 ![] bcast_S_S3200000 (constantI S_ 32 0#32))) (addi (shapeCast _ (extractStridedSlice S1x3200000 ![0, 0] e slices_S2x3200000_S1x3200000_0_0) shapeCasts_S1x3200000_S3200000) (broadcastInDim S3200000 ![] bcast_S_S3200000 (constantI S_ 32 100000#32))) (shapeCast _ (extractStridedSlice S1x3200000 ![0, 0] e slices_S2x3200000_S1x3200000_0_0) shapeCasts_S1x3200000_S3200000))))) (broadcastInDim S100000x16 ![0, 1] bcast_S100000x1_S100000x16_0_1 (broadcastInDim S100000x1 ![0] bcast_S100000_S100000x1_0 (maximumf (Host.scatterAdd scatter_S100000_S3200000x1_S3200000_n_0_0_1 (broadcastInDim S100000 ![] bcast_S_S100000 (constant (F := Ideal) S_ .f32 0x00000000#32)) (broadcastInDim S3200000x1 ![0] bcast_S3200000_S3200000x1_0 (shapeCast _ (extractStridedSlice S1x3200000 ![1, 0] e slices_S2x3200000_S1x3200000_1_0) shapeCasts_S1x3200000_S3200000)) (broadcastInDim S3200000 ![] bcast_S_S3200000 (constant (F := Ideal) S_ .f32 0x3F800000#32))) (broadcastInDim S100000 ![] bcast_S_S100000 (constant (F := Ideal) S_ .f32 0x3F800000#32)))))

end Reference

/-- The two spellings are one function: the same operations over the same dimension records. -/
theorem neighbourMeanRef_eq (h : FVec Ideal Cert.KernelIdeal.S100000x16 .f32) (e : Vec Ideal Cert.KernelIdeal.S2x3200000 .i32) :
    neighbourMeanRef h e = neighbourMean h e := rfl

end Cert.NodeRows.Mean
-- ==== Proof.KernelValue.lean ====
/-
  The kernel's result from its launch memory. The first region leaves the hidden features H of the input table; the
  host stretch between the regions reads H and the edge list, which nothing has written, and leaves their neighbour
  mean, touching neither H nor the second stage's parameters; the second region leaves the combine of that mean with
  H. So the result array ends at combine(neighbourMean(H, e), H), H the perceptron of the input rows.
-/
import proofs.«103215_j29755533427165_1_alg».proof.Proof.HiddenArray
import proofs.«103215_j29755533427165_1_alg».proof.Proof.OutputArray
import proofs.«103215_j29755533427165_1_alg».proof.Proof.NeighbourMean
import proofs.«103215_j29755533427165_1_alg».proof.Proof.KernelRun

noncomputable section

open Idealize.ShloMosaic Idealize.ShloMosaic.TcCoe Idealize.SL.Sem

namespace Cert.NodeRows

open Idealize.ShloMosaic.ValueIdx Cert.LibDenseRows Cert.KernelIdeal Cert.KernelIdeal.Gen

variable (m : (ℓ : Loc nD τ sig) → Buf (Elt Ideal) ℓ) (ρ : Dev nD → PrngReg)

/-- The hidden features of all nodes, from the launch memory. -/
abbrev launchHidden (c : Dev nD) : FVec Ideal (Sh2 100000 16) .f32 :=
  hidden (R := 100000) (m ((c : Thread nD τ).loc main_arg0)) (m ((c : Thread nD τ).loc main_arg2)) (m ((c : Thread nD τ).loc main_arg3))
    (m ((c : Thread nD τ).loc main_arg4)) (m ((c : Thread nD τ).loc main_arg5))

/-- The network's output for all nodes, from the launch memory. -/
abbrev launchOutput (c : Dev nD) : FVec Ideal (Sh2 100000 32) .f32 :=
  combine (R := 100000) (Mean.neighbourMean (launchHidden m c) (m ((c : Thread nD τ).loc main_arg1))) (launchHidden m c)
    (m ((c : Thread nD τ).loc main_arg6)) (m ((c : Thread nD τ).loc main_arg7)) (m ((c : Thread nD τ).loc main_arg8))

/-- After the first region the hidden-feature array holds the perceptron of the launched input table. -/
theorem hidden_after_first (c : Dev nD) : W1 m ρ c (Proc.devRef .tc main_v0) = launchHidden m c :=
  (W1_arr m ρ c 5).trans (hidden_array (V0 m ρ) c)

/-- After the second region the result array holds the network's output. -/
theorem output_after_second (c : Dev nD) : W3 m ρ c (Proc.devRef .tc main_v24) = launchOutput m c := by
  refine (W3_arr m ρ c 5).trans ((Out.output_array (V2 m ρ) c).trans ?_)
  show combine (R := 100000) (StableHlo.after hostOps1 (W1 m ρ c) (Proc.devRef .tc main_v23))
      (StableHlo.after hostOps1 (W1 m ρ c) (Proc.devRef .tc main_v0))
      (StableHlo.after hostOps1 (W1 m ρ c) (Proc.devRef .tc main_arg6))
      (StableHlo.after hostOps1 (W1 m ρ c) (Proc.devRef .tc main_arg7))
      (StableHlo.after hostOps1 (W1 m ρ c) (Proc.devRef .tc main_arg8)) = _
  rw [Mean.after_mean, Mean.after_hidden, Mean.after_wl, Mean.after_bl, Mean.after_wr, hidden_after_first,
    W1_of_ne m ρ c main_arg1 (by decide), W1_of_ne m ρ c main_arg6 (by decide), W1_of_ne m ρ c main_arg7 (by decide),
    W1_of_ne m ρ c main_arg8 (by decide)]

/-- The kernel's run, read: the result array at the network's output of the launched arguments, the arguments unchanged. -/
theorem kernel_run : θ_run defs (onTc (τ := τ) (main (F := Ideal))) ⟨m, fun _ => 0, ρ⟩ (fun r => ∀ c : Dev nD,
      r.2.mem ((c.tc : Thread nD τ).loc main_v24) = launchOutput m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (output_after_second m ρ c), (h c).2⟩)
    (Cert.KernelIdeal.Named.run_named (F := Ideal) m ρ)

end Cert.NodeRows
-- ==== Proof.RefValue.lean ====
/-
  The reference program's two dense stages are the specification. Its hidden features are two dot_generals, each
  with its bias broadcast over the rows, and the maximum with a broadcast zero between them: row by row the
  perceptron. Its last stage is a dot_general of the neighbour means plus the broadcast bias, then plus a dot_general of
  the hidden features: row by row the combine, grouped (a·W_l + b_l) + h·W_r as in the kernel. With the message-passing
  chain between them carried as one function, the reference's whole result is the combine of the neighbour mean of
  the hidden features with the hidden features.
-/
import proofs.«103215_j29755533427165_1_alg».proof.Proof.Gen.ReferenceIdeal
import proofs.«103215_j29755533427165_1_alg».proof.Proof.RowSpec
import proofs.«103215_j29755533427165_1_alg».proof.Proof.NeighbourMean

noncomputable section

open Idealize.ShloMosaic Idealize.ShloMosaic.TcCoe Idealize.SL.Sem

namespace Cert.NodeRows.Ref

open Idealize.ShloMosaic.ValueIdx Cert.LibDenseRows Cert.NodeRows Cert.NodeRows.Mean Cert.ReferenceIdeal Cert.ReferenceIdeal.Gen

/-- The reference's hidden features, as it spells them. -/
def hiddenRef (x : FVec Ideal S100000x16 .f32) (w1 : FVec Ideal S16x16 .f32) (b1 : FVec Ideal S16 .f32)
    (w2 : FVec Ideal S16x16 .f32) (b2 : FVec Ideal S16 .f32) : FVec Ideal S100000x16 .f32 :=
  addf (Host.dotGeneral dot_S100000x16_S16x16_S100000x16_1_0_0_1_n_n none (maximumf (addf (Host.dotGeneral dot_S100000x16_S16x16_S100000x16_1_0_0_1_n_n none x w1) (broadcastInDim S100000x16 ![0, 1] bcast_S1x16_S100000x16_0_1 (broadcastInDim S1x16 ![1] bcast_S16_S1x16_1 b1))) (broadcastInDim S100000x16 ![] bcast_S_S100000x16 (constant (F := Ideal) S_ .f32 0x00000000#32))) w2) (broadcastInDim S100000x16 ![0, 1] bcast_S1x16_S100000x16_0_1 (broadcastInDim S1x16 ![1] bcast_S16_S1x16_1 b2))

/-- The reference's last stage, as it spells it, from the neighbour means a and the hidden features h. -/
def outputRef (a h : FVec Ideal S100000x16 .f32) (wl : FVec Ideal S16x32 .f32) (bl : FVec Ideal S32 .f32)
    (wr : FVec Ideal S16x32 .f32) : FVec Ideal S100000x32 .f32 :=
  addf (addf (Host.dotGeneral dot_S100000x16_S16x32_S100000x32_1_0_0_1_n_n none a wl) (broadcastInDim S100000x32 ![0, 1] bcast_S1x32_S100000x32_0_1 (broadcastInDim S1x32 ![1] bcast_S32_S1x32_1 bl))) (Host.dotGeneral dot_S100000x16_S16x32_S100000x32_1_0_0_1_n_n none h wr)

/-- Row by row the reference's hidden features are the perceptron. -/
theorem hiddenRef_eq (x : FVec Ideal S100000x16 .f32) (w1 : FVec Ideal S16x16 .f32) (b1 : FVec Ideal S16 .f32)
    (w2 : FVec Ideal S16x16 .f32) (b2 : FVec Ideal S16 .f32) :
    hiddenRef x w1 b1 w2 b2 = hidden (R := 100000) x w1 b1 w2 b2 := by
  funext i
  obtain ⟨r, n, rfl⟩ : ∃ (r : Fin 100000) (n : Fin 16), i = ix2 r n := ⟨i 0, i 1, eq_ix2 i⟩
  rw [hidden_apply]
  show hDense (R := 100000) (K := 16) (N := 16)
      (hRelu (hDense (R := 100000) (K := 16) (N := 16) x w1 b1 bcast_S16_S1x16_1 bcast_S1x16_S100000x16_0_1) bcast_S_S100000x16)
      w2 b2 bcast_S16_S1x16_1 bcast_S1x16_S100000x16_0_1 (ix2 r n) = _
  refine (congrFun (hDense_row _ _ b2 _ _ r) n).trans ?_
  rw [hRelu_row, hDense_row]
  rfl

/-- Row by row the reference's last stage is the combine. -/
theorem outputRef_eq (a h : FVec Ideal S100000x16 .f32) (wl : FVec Ideal S16x32 .f32) (bl : FVec Ideal S32 .f32)
    (wr : FVec Ideal S16x32 .f32) :
    outputRef a h wl bl wr = combine (R := 100000) a h wl bl wr := by
  funext i
  obtain ⟨r, n, rfl⟩ : ∃ (r : Fin 100000) (n : Fin 32), i = ix2 r n := ⟨i 0, i 1, eq_ix2 i⟩
  rw [combine_apply]
  show hDense (R := 100000) (K := 16) (N := 32) a wl bl bcast_S32_S1x32_1 bcast_S1x32_S100000x32_0_1 (ix2 r n)
      + Host.dotGeneral (DotDims.plain 100000 16 32) none h wr (ix2 r n) = _
  rw [congrFun (hDense_row _ _ bl _ _ r) n, StackMember.dotGeneral_plain_apply]
  rfl

/-- The reference's whole result, from its arguments: the combine of the neighbour mean of the hidden features with
    the hidden features — the message-passing chain in the kernel's spelling, which is the same function. -/
theorem reference_result (x : FVec Ideal S100000x16 .f32) (e : Vec Ideal S2x3200000 .i32) (w1 : FVec Ideal S16x16 .f32)
    (b1 : FVec Ideal S16 .f32) (w2 : FVec Ideal S16x16 .f32) (b2 : FVec Ideal S16 .f32) (wl : FVec Ideal S16x32 .f32)
    (bl : FVec Ideal S32 .f32) (wr : FVec Ideal S16x32 .f32) :
    outputRef (neighbourMeanRef (hiddenRef x w1 b1 w2 b2) e) (hiddenRef x w1 b1 w2 b2) wl bl wr
      = combine (R := 100000) (neighbourMean (hidden (R := 100000) x w1 b1 w2 b2) e) (hidden (R := 100000) x w1 b1 w2 b2) wl bl wr := by
  rw [hiddenRef_eq, outputRef_eq, neighbourMeanRef_eq]

end Cert.NodeRows.Ref
-- ==== Proof.lean ====
/-
  A two-stage graph network on 100000 nodes with 16 input features and 3200000 directed edges, against its plain
  reference. Stage one gives every node hidden features h = max(x·W₁ + b₁, 0)·W₂ + b₂. The message-passing step takes,
  for every node, the mean of h over the sources of its incoming edges (the sum divided by the larger of the edge count
  and one). Stage two gives every node (mean·W_l + b_l) + h·W_r, 32 features wide.

  The kernel computes the two dense stages in two gridded regions of twenty row blocks each and the message-passing
  step with host operations between them; the reference computes everything with host operations. At the extended
  reals every block product and every dot_general is the same finite sum over the sixteen contracted coordinates, a
  change of float format changes nothing, and both programs group the last sum the same way, so no law beyond reading
  each operation at an index is needed and the finiteness of the inputs is never used. The message-passing step is the
  same chain of operations in both programs and is carried as one function of h and the edge list.

  Modules: RowSpec (the network on one row, lifted to tables), LibDenseRows (a dense layer and the rectifier read along
  a row in both spellings), BlockBodies (the two kernel bodies on a block), HiddenArray and OutputArray (each region's
  result array from the contents it finds), NeighbourMean (the shared chain), KernelRun (the run with the result array
  named), KernelValue (the kernel's result from the launch memory), RefValue (the reference's result). Here: the claims.
-/
import proofs.«103215_j29755533427165_1_alg».proof.Defs
import proofs.«103215_j29755533427165_1_alg».proof.Proof.Gen.Kernel
import proofs.«103215_j29755533427165_1_alg».proof.Proof.Gen.Kernel.Frame
import proofs.«103215_j29755533427165_1_alg».proof.Proof.Gen.KernelIdeal
import proofs.«103215_j29755533427165_1_alg».proof.Proof.Gen.KernelIdeal.Frame
import proofs.«103215_j29755533427165_1_alg».proof.Proof.Gen.ReferenceIdeal
import proofs.«103215_j29755533427165_1_alg».proof.Proof.Gen.ReferenceIdeal.Run
import proofs.«103215_j29755533427165_1_alg».proof.Proof.Gen.Pre_finite_inputs
import proofs.«103215_j29755533427165_1_alg».proof.Proof.KernelValue
import proofs.«103215_j29755533427165_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with the same 100000 × 32 result: the combine of
    the neighbour mean of the hidden features with the hidden features. -/
theorem algebraic : Cert.algebraic_KernelIdeal_ReferenceIdeal := by
  intro m ρ m' ρ' _ hagree
  refine ⟨fun c => Cert.NodeRows.launchOutput m c, Cert.NodeRows.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  exact Cert.NodeRows.Ref.reference_result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
